-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x4096 : Shape := ⟨3, ![64, 256, 4096]⟩
abbrev S64x256x32 : Shape := ⟨3, ![64, 256, 32]⟩
abbrev S64x1024x4096 : Shape := ⟨3, ![64, 1024, 4096]⟩
abbrev S64x8x32 : Shape := ⟨3, ![64, 8, 32]⟩
abbrev S64 : Shape := ⟨1, ![64]⟩
abbrev S_ : Shape := ⟨0, ![]⟩

class Facts : Prop where
  bcast_S_S64x256x4096 : S_.BroadcastsInDim S64x256x4096 (![] : Fin 0 → Fin S64x256x4096.rank)
  reducesTo_S64x256x4096_S_d0_1_2 : S64x256x4096.ReducesTo [0, 1, 2] S_
  h_S_ : 0 < S_.numel
  bcast_S_S64x256x32 : S_.BroadcastsInDim S64x256x32 (![] : Fin 0 → Fin S64x256x32.rank)
  reducesTo_S64x256x32_S_d0_1_2 : S64x256x32.ReducesTo [0, 1, 2] S_
  bcast_S_S64x1024x4096 : S_.BroadcastsInDim S64x1024x4096 (![] : Fin 0 → Fin S64x1024x4096.rank)
  reducesTo_S64x1024x4096_S_d0_1_2 : S64x1024x4096.ReducesTo [0, 1, 2] S_
  bcast_S_S64x8x32 : S_.BroadcastsInDim S64x8x32 (![] : Fin 0 → Fin S64x8x32.rank)
  reducesTo_S64x8x32_S_d0_1_2 : S64x8x32.ReducesTo [0, 1, 2] S_

variable [Facts]

def fn_part1 {F : FTy → Type} [FloatOps F] (main_v13 : IVec S_ 1) (main_v16 : IVec S64x8x32 1) : IVec S_ 1 :=
  let main_c_5 : IVec S_ 1 := constantI S_ 1 1#1
  let main_v17 : IVec S_ 1 := (fun x v => Host.reduce IntOp.andi x v reducesTo_S64x8x32_S_d0_1_2 h_S_) main_v16 main_c_5
  let main_v18 : IVec S_ 1 := andi main_v13 main_v17
  main_v18

def fn {F : FTy → Type} [FloatOps F] (main_arg0 : FVec F S64x256x4096 .f32) (main_arg1 : FVec F S64x256x32 .f32) (main_arg2 : FVec F S64x1024x4096 .f32) (main_arg3 : FVec F S64x8x32 .f32) (main_arg4 : IVec S64 32) : IVec S_ 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  let main_c : IVec S_ 1 := constantI S_ 1 1#1
  let main_v3 : IVec S_ 1 := (fun x v => Host.reduce IntOp.andi x v reducesTo_S64x256x4096_S_d0_1_2 h_S_) main_v2 main_c
  let main_v4 : FVec F S64x256x32 .f32 := Host.absf main_arg1
  let main_cst_0 : FVec F S_ .f32 := constant S_ .f32 0x7F800000#32
  let main_v5 : FVec F S64x256x32 .f32 := broadcastInDim S64x256x32 ![] bcast_S_S64x256x32 main_cst_0
  let main_v6 : IVec S64x256x32 1 := cmpf .olt main_v4 main_v5
  let main_c_1 : IVec S_ 1 := constantI S_ 1 1#1
  let main_v7 : IVec S_ 1 := (fun x v => Host.reduce IntOp.andi x v reducesTo_S64x256x32_S_d0_1_2 h_S_) main_v6 main_c_1
  let main_v8 : IVec S_ 1 := andi main_v3 main_v7
  let main_v9 : FVec F S64x1024x4096 .f32 := Host.absf main_arg2
  let main_cst_2 : FVec F S_ .f32 := constant S_ .f32 0x7F800000#32
  let main_v10 : FVec F S64x1024x4096 .f32 := broadcastInDim S64x1024x4096 ![] bcast_S_S64x1024x4096 main_cst_2
  let main_v11 : IVec S64x1024x4096 1 := cmpf .olt main_v9 main_v10
  let main_c_3 : IVec S_ 1 := constantI S_ 1 1#1
  let main_v12 : IVec S_ 1 := (fun x v => Host.reduce IntOp.andi x v reducesTo_S64x1024x4096_S_d0_1_2 h_S_) main_v11 main_c_3
  let main_v13 : IVec S_ 1 := andi main_v8 main_v12
  let main_v14 : FVec F S64x8x32 .f32 := Host.absf main_arg3
  let main_cst_4 : FVec F S_ .f32 := constant S_ .f32 0x7F800000#32
  let main_v15 : FVec F S64x8x32 .f32 := broadcastInDim S64x8x32 ![] bcast_S_S64x8x32 main_cst_4
  let main_v16 : IVec S64x8x32 1 := cmpf .olt main_v14 main_v15
  fn_part1 (F := F) main_v13 main_v16
-- ==== Kernel.lean ====
abbrev S64x256x4096 : Shape := ⟨3, ![64, 256, 4096]⟩
abbrev S64x256x32 : Shape := ⟨3, ![64, 256, 32]⟩
abbrev S64x1024x4096 : Shape := ⟨3, ![64, 1024, 4096]⟩
abbrev S64x8x32 : Shape := ⟨3, ![64, 8, 32]⟩
abbrev S64 : Shape := ⟨1, ![64]⟩
abbrev S64x256x2x16 : Shape := ⟨4, ![64, 256, 2, 16]⟩
abbrev S64x2x256x16 : Shape := ⟨4, ![64, 2, 256, 16]⟩
abbrev S64x8x2x16 : Shape := ⟨4, ![64, 8, 2, 16]⟩
abbrev S64x2x8x16 : Shape := ⟨4, ![64, 2, 8, 16]⟩
abbrev S64x256x1024 : Shape := ⟨3, ![64, 256, 1024]⟩
abbrev S1x256x2048 : Shape := ⟨3, ![1, 256, 2048]⟩
abbrev S1x1x256x16 : Shape := ⟨4, ![1, 1, 256, 16]⟩
abbrev S1x1024x2048 : Shape := ⟨3, ![1, 1024, 2048]⟩
abbrev S1x1x8x16 : Shape := ⟨4, ![1, 1, 8, 16]⟩
abbrev S1x256x1024 : Shape := ⟨3, ![1, 256, 1024]⟩
abbrev S256x1024 : Shape := ⟨2, ![256, 1024]⟩
abbrev S256x2048 : Shape := ⟨2, ![256, 2048]⟩
abbrev S256x16 : Shape := ⟨2, ![256, 16]⟩
abbrev S256x16x128 : Shape := ⟨3, ![256, 16, 128]⟩
abbrev S256x16x1 : Shape := ⟨3, ![256, 16, 1]⟩
abbrev S1024x2048 : Shape := ⟨2, ![1024, 2048]⟩
abbrev S8x16 : Shape := ⟨2, ![8, 16]⟩
abbrev S8x128x16x128 : Shape := ⟨4, ![8, 128, 16, 128]⟩
abbrev S8x1x16x1 : Shape := ⟨4, ![8, 1, 16, 1]⟩
abbrev S1 : Shape := ⟨1, ![1]⟩

abbrev nBuf : Space → Nat
  | .hbm => 9
  | .vmem => 11
  | .smem => 1
  | _ => 0

abbrev bufTy : (tb : Table) → Fin (tcTables nBuf tb) → BufTy
  | .hbm, ⟨0, _⟩ => ⟨S64x256x4096, .f32⟩
  | .hbm, ⟨1, _⟩ => ⟨S64x256x32, .f32⟩
  | .hbm, ⟨2, _⟩ => ⟨S64x1024x4096, .f32⟩
  | .hbm, ⟨3, _⟩ => ⟨S64x8x32, .f32⟩
  | .hbm, ⟨4, _⟩ => ⟨S64x256x2x16, .f32⟩
  | .hbm, ⟨5, _⟩ => ⟨S64x2x256x16, .f32⟩
  | .hbm, ⟨6, _⟩ => ⟨S64x8x2x16, .f32⟩
  | .hbm, ⟨7, _⟩ => ⟨S64x2x8x16, .f32⟩
  | .hbm, ⟨8, _⟩ => ⟨S64x256x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x256x16, .f32⟩
  | .local _ .vmem, ⟨3, _⟩ => ⟨S1x1x256x16, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x8x16, .f32⟩
  | .local _ .vmem, ⟨7, _⟩ => ⟨S1x1x8x16, .f32⟩
  | .local _ .vmem, ⟨8, _⟩ => ⟨S1x256x1024, .bf16⟩
  | .local _ .vmem, ⟨9, _⟩ => ⟨S1x256x1024, .bf16⟩
  | .local _ .vmem, ⟨10, _⟩ => ⟨S256x1024, .f32⟩
  | .local _ .smem, ⟨0, _⟩ => ⟨S64, .i32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_18 : BitVec 32 := 0#32
  let v31 : BitVec 1 := Scalar.cmpi .ne v30 c0_i32_18
  v31

def k0_off1 (i : grid0.Coords) : Fin 1 → Nat :=
  let arg0 : BitVec 32 := BitVec.ofNat 32 (i 0).val
  let v32 : Index := Scalar.indexCast arg0
  ![v32.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x256x32_S64x256x2x16 : S64x256x32.ShapeCasts S64x256x2x16
  transposes_S64x256x2x16_S64x2x256x16_0_2_1_3 : S64x256x2x16.Transposes [0, 2, 1, 3] S64x2x256x16
  shapeCasts_S64x8x32_S64x8x2x16 : S64x8x32.ShapeCasts S64x8x2x16
  transposes_S64x8x2x16_S64x2x8x16_0_2_1_3 : S64x8x2x16.Transposes [0, 2, 1, 3] S64x2x8x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x256x16_S1x1x256x16_0_0_0_0 : ∀ a, (![0, 0, 0, 0] : Fin 4 → Nat) a + S1x1x256x16.size a ≤ S1x1x256x16.size a
  h_S1x1x256x16 : 0 < S1x1x256x16.numel
  shapeCasts_S1x1x256x16_S256x16 : S1x1x256x16.ShapeCasts S256x16
  shapeCasts_S256x2048_S256x16x128 : S256x2048.ShapeCasts S256x16x128
  shapeCasts_S256x16_S256x16x1 : S256x16.ShapeCasts S256x16x1
  broadcasts_S256x16x1_S256x16x128 : S256x16x1.Broadcasts S256x16x128
  shapeCasts_S256x16x128_S256x2048 : S256x16x128.ShapeCasts S256x2048
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x8x16_S1x1x8x16_0_0_0_0 : ∀ a, (![0, 0, 0, 0] : Fin 4 → Nat) a + S1x1x8x16.size a ≤ S1x1x8x16.size a
  h_S1x1x8x16 : 0 < S1x1x8x16.numel
  shapeCasts_S1x1x8x16_S8x16 : S1x1x8x16.ShapeCasts S8x16
  shapeCasts_S1024x2048_S8x128x16x128 : S1024x2048.ShapeCasts S8x128x16x128
  shapeCasts_S8x16_S8x1x16x1 : S8x16.ShapeCasts S8x1x16x1
  broadcasts_S8x1x16x1_S8x128x16x128 : S8x1x16x1.Broadcasts S8x128x16x128
  shapeCasts_S8x128x16x128_S1024x2048 : S8x128x16x128.ShapeCasts S1024x2048
  numel1_S1 : S1.numel = 1
  iota_S256x1024_d0_w32 : S256x1024.Iotas .tc 32 [0]
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  dot_S256x2048_S1024x2048_S256x1024_1_1_0_0_n_n_wf : DotDims.WF S256x2048 S1024x2048 S256x1024 [1] [1] [0] [0] [] []
  hrank0 : 0 < grid0.rank
  k0_off1_inb : ∀ i : grid0.Coords, ∀ (k0_h2 : k0_cond2 i = 1#1), ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x4096.size a
  hwx0_0 : ∀ i : grid0.Coords, EltTy.bits .f32 = 32 ∨ (Rect.block (s := S64x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x16.size a ≤ S64x2x256x16.size a
  hwx0_1 : ∀ i : grid0.Coords, EltTy.bits .f32 = 32 ∨ (Rect.block (s := S64x2x256x16) S1x1x256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S64x1024x4096.size a
  hwx0_2 : ∀ i : grid0.Coords, EltTy.bits .f32 = 32 ∨ (Rect.block (s := S64x1024x4096) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x16.size a ≤ S64x2x8x16.size a
  hwx0_3 : ∀ i : grid0.Coords, EltTy.bits .f32 = 32 ∨ (Rect.block (s := S64x2x8x16) S1x1x8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x256x1024.size a
  hwx0_4 : ∀ i : grid0.Coords, EltTy.bits .bf16 = 32 ∨ (Rect.block (s := S64x256x1024) S1x256x1024.size (cc0_transform_4 i) (hinb0_4 i)).WholeWords (EltTy.packing .bf16)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev spec0_0 : Pipeline.WinSpec sig grid0.rank :=
  Pipeline.WinSpec.ofSpec (Memref.whole main_arg0) S1x256x2048.size reads0_0 false false 2 stage0_0 sem0_0 nbuf0_0 hstage0_0

abbrev spec0_1 : Pipeline.WinSpec sig grid0.rank :=
  Pipeline.WinSpec.ofSpec (Memref.whole main_v1) S1x1x256x16.size reads0_1 false false 2 stage0_1 sem0_1 nbuf0_1 hstage0_1

abbrev spec0_2 : Pipeline.WinSpec sig grid0.rank :=
  Pipeline.WinSpec.ofSpec (Memref.whole main_arg2) S1x1024x2048.size reads0_2 false false 2 stage0_2 sem0_2 nbuf0_2 hstage0_2

abbrev spec0_3 : Pipeline.WinSpec sig grid0.rank :=
  Pipeline.WinSpec.ofSpec (Memref.whole main_v3) S1x1x8x16.size reads0_3 false false 2 stage0_3 sem0_3 nbuf0_3 hstage0_3

abbrev spec0_4 : Pipeline.WinSpec sig grid0.rank :=
  Pipeline.WinSpec.ofSpec (Memref.whole main_v4) S1x256x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x256x4096 : Shape := ⟨3, ![64, 256, 4096]⟩
abbrev S64x256x32 : Shape := ⟨3, ![64, 256, 32]⟩
abbrev S64x1024x4096 : Shape := ⟨3, ![64, 1024, 4096]⟩
abbrev S64x8x32 : Shape := ⟨3, ![64, 8, 32]⟩
abbrev S64 : Shape := ⟨1, ![64]⟩
abbrev S64x256x32x128 : Shape := ⟨4, ![64, 256, 32, 128]⟩
abbrev S64x256x32x1 : Shape := ⟨4, ![64, 256, 32, 1]⟩
abbrev S64x8x128x32x128 : Shape := ⟨5, ![64, 8, 128, 32, 128]⟩
abbrev S64x8x1x32x1 : Shape := ⟨5, ![64, 8, 1, 32, 1]⟩
abbrev S64x256x1024 : Shape := ⟨3, ![64, 256, 1024]⟩
abbrev S256 : Shape := ⟨1, ![256]⟩
abbrev S1x256 : Shape := ⟨2, ![1, 256]⟩
abbrev S64x1 : Shape := ⟨2, ![64, 1]⟩
abbrev S64x256 : Shape := ⟨2, ![64, 256]⟩
abbrev S64x256x1 : Shape := ⟨3, ![64, 256, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S64x256x4096, .f32⟩
  | .hbm, ⟨1, _⟩ => ⟨S64x256x32, .f32⟩
  | .hbm, ⟨2, _⟩ => ⟨S64x1024x4096, .f32⟩
  | .hbm, ⟨3, _⟩ => ⟨S64x8x32, .f32⟩
  | .hbm, ⟨4, _⟩ => ⟨S64, .i32⟩
  | .hbm, ⟨5, _⟩ => ⟨S64x256x32x128, .f32⟩
  | .hbm, ⟨6, _⟩ => ⟨S64x256x32x1, .f32⟩
  | .hbm, ⟨7, _⟩ => ⟨S64x256x32x128, .f32⟩
  | .hbm, ⟨8, _⟩ => ⟨S64x256x32x128, .f32⟩
  | .hbm, ⟨9, _⟩ => ⟨S64x256x4096, .f32⟩
  | .hbm, ⟨10, _⟩ => ⟨S64x8x128x32x128, .f32⟩
  | .hbm, ⟨11, _⟩ => ⟨S64x8x1x32x1, .f32⟩
  | .hbm, ⟨12, _⟩ => ⟨S64x8x128x32x128, .f32⟩
  | .hbm, ⟨13, _⟩ => ⟨S64x8x128x32x128, .f32⟩
  | .hbm, ⟨14, _⟩ => ⟨S64x1024x4096, .f32⟩
  | .hbm, ⟨15, _⟩ => ⟨S64x256x1024, .f32⟩
  | .hbm, ⟨16, _⟩ => ⟨S256, .i32⟩
  | .hbm, ⟨17, _⟩ => ⟨S1x256, .i32⟩
  | .hbm, ⟨18, _⟩ => ⟨S64x1, .i32⟩
  | .hbm, ⟨19, _⟩ => ⟨S64x256, .i32⟩
  | .hbm, ⟨20, _⟩ => ⟨S64x256, .i32⟩
  | .hbm, ⟨21, _⟩ => ⟨S64x256, .i1⟩
  | .hbm, ⟨22, _⟩ => ⟨S64x256x1, .i1⟩
  | .hbm, ⟨23, _⟩ => ⟨S_, .f32⟩
  | .hbm, ⟨24, _⟩ => ⟨S64x256x1024, .i1⟩
  | .hbm, ⟨25, _⟩ => ⟨S64x256x1024, .f32⟩
  | .hbm, ⟨26, _⟩ => ⟨S64x256x1024, .f32⟩
  | .hbm, ⟨27, _⟩ => ⟨S64x256x1024, .bf16⟩
  | _, _ => ⟨S64x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S64x256x4096_S64x256x32x128 : S64x256x4096.ShapeCasts S64x256x32x128
  bcast_S64x256x32_S64x256x32x1_0_1_2 : S64x256x32.BroadcastsInDim S64x256x32x1 (![0, 1, 2] : Fin 3 → Fin S64x256x32x1.rank)
  bcast_S64x256x32x1_S64x256x32x128_0_1_2_3 : S64x256x32x1.BroadcastsInDim S64x256x32x128 (![0, 1, 2, 3] : Fin 4 → Fin S64x256x32x128.rank)
  shapeCasts_S64x256x32x128_S64x256x4096 : S64x256x32x128.ShapeCasts S64x256x4096
  shapeCasts_S64x1024x4096_S64x8x128x32x128 : S64x1024x4096.ShapeCasts S64x8x128x32x128
  bcast_S64x8x32_S64x8x1x32x1_0_1_3 : S64x8x32.BroadcastsInDim S64x8x1x32x1 (![0, 1, 3] : Fin 3 → Fin S64x8x1x32x1.rank)
  bcast_S64x8x1x32x1_S64x8x128x32x128_0_1_2_3_4 : S64x8x1x32x1.BroadcastsInDim S64x8x128x32x128 (![0, 1, 2, 3, 4] : Fin 5 → Fin S64x8x128x32x128.rank)
  shapeCasts_S64x8x128x32x128_S64x1024x4096 : S64x8x128x32x128.ShapeCasts S64x1024x4096
  bcast_S256_S1x256_1 : S256.BroadcastsInDim S1x256 (![1] : Fin 1 → Fin S1x256.rank)
  bcast_S64_S64x1_0 : S64.BroadcastsInDim S64x1 (![0] : Fin 1 → Fin S64x1.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  bcast_S64x256_S64x256x1_0_1 : S64x256.BroadcastsInDim S64x256x1 (![0, 1] : Fin 2 → Fin S64x256x1.rank)
  bcast_S64x256x1_S64x256x1024_0_1_2 : S64x256x1.BroadcastsInDim S64x256x1024 (![0, 1, 2] : Fin 3 → Fin S64x256x1024.rank)
  bcast_S_S64x256x1024 : S_.BroadcastsInDim S64x256x1024 (![] : Fin 0 → Fin S64x256x1024.rank)
  bitsLt_bf16_f32 : FTy.bits .bf16 < FTy.bits .f32
  dot_S64x256x4096_S64x1024x4096_S64x256x1024_2_2_1_1_0_0_wf : DotDims.WF S64x256x4096 S64x1024x4096 S64x256x1024 [2] [2] [1] [1] [0] [0]

variable [Facts₀]

def dot_S64x256x4096_S64x1024x4096_S64x256x1024_2_2_1_1_0_0 : DotDims S64x256x4096 S64x1024x4096 S64x256x1024 where
  lhsContracting := [2]
  rhsContracting := [2]
  lhsNonContracting := [1]
  rhsNonContracting := [1]
  lhsBatch := [0]
  rhsBatch := [0]
  wf := dot_S64x256x4096_S64x1024x4096_S64x256x1024_2_2_1_1_0_0_wf

class Facts : Prop extends Facts₀ where

variable [Facts]
-- ==== Proof.Spec.lean ====
/-
  The grouped, block-scaled matrix product as one function of the five argument arrays.

  For expert `e`, token row `r`, output column `n`:
    out[e, r, n] = Σ_{k < 4096} (x[e, r, k] · sx[e, r, k / 128]) · (w[e, n, k] · sw[e, n / 128, k / 128])   if r < masked_m[e] (signed)
                 = 0                                                                                      otherwise.
  Each factor is an entry scaled by the scale of its 128-wide block.  The contraction range splits
  into its two halves of 2048 positions; over the extended reals addition is commutative and
  associative, so the sum over all 4096 positions is the first half's sum plus the second half's,
  and adding the first half onto a zero start changes nothing.  No finiteness is needed for that.
-/
import Idealize.ShloMosaic.PureOps.Ideal
import Idealize.ShloMosaic.Lib.ValueIdx

noncomputable section

open scoped BigOperators

namespace Cert.GroupedGemm

open Idealize.ShloMosaic Idealize.ShloMosaic.ValueIdx

/-- The 128-wide block a contraction position lies in. -/
def kblock (k : Fin 4096) : Fin 32 := ⟨k.val / 128, by have := k.isLt; omega⟩

/-- The 128-wide block an output column lies in. -/
def nblock (n : Fin 1024) : Fin 8 := ⟨n.val / 128, by have := n.isLt; omega⟩

/-- Position `k` of half `h` of the contraction range: `2048 · h + k`. -/
def halfPos (h : Fin 2) (k : Fin 2048) : Fin 4096 := ⟨h.val * 2048 + k.val, by have := h.isLt; have := k.isLt; omega⟩

/-- One product of the contraction: the activation entry times its block scale, times the weight entry times its block scale. -/
def term (x : (⟨3, ![64, 256, 4096]⟩ : Shape).Idx → EReal) (sx : (⟨3, ![64, 256, 32]⟩ : Shape).Idx → EReal)
    (w : (⟨3, ![64, 1024, 4096]⟩ : Shape).Idx → EReal) (sw : (⟨3, ![64, 8, 32]⟩ : Shape).Idx → EReal)
    (e : Fin 64) (r : Fin 256) (n : Fin 1024) (k : Fin 4096) : EReal :=
  (x (ix3 e r k) * sx (ix3 e r (kblock k))) * (w (ix3 e n k) * sw (ix3 e (nblock n) (kblock k)))

/-- Whether token row `r` of expert `e` is kept: `r < masked_m[e]`, compared as signed 32-bit words. -/
def keep (mm : (⟨1, ![64]⟩ : Shape).Idx → BitVec 32) (e : Fin 64) (r : Fin 256) : BitVec 1 :=
  IntOp.cmpi .slt (BitVec.ofNat 32 r.val) (mm (ix1 e))

/-- The masked grouped product, entry by entry. -/
def result (x : (⟨3, ![64, 256, 4096]⟩ : Shape).Idx → EReal) (sx : (⟨3, ![64, 256, 32]⟩ : Shape).Idx → EReal)
    (w : (⟨3, ![64, 1024, 4096]⟩ : Shape).Idx → EReal) (sw : (⟨3, ![64, 8, 32]⟩ : Shape).Idx → EReal)
    (mm : (⟨1, ![64]⟩ : Shape).Idx → BitVec 32) : (⟨3, ![64, 256, 1024]⟩ : Shape).Idx → EReal :=
  fun i => Scalar.select (keep mm (i 0) (i 1)) (∑ k : Fin 4096, term x sx w sw (i 0) (i 1) (i 2) k) 0

/-- A sum over the 4096 contraction positions is the sum over the first half plus the sum over the second. -/
theorem sum_halves {M : Type*} [AddCommMonoid M] (f : Fin 4096 → M) :
    ∑ k : Fin 4096, f k = ∑ k : Fin 2048, f (halfPos 0 k) + ∑ k : Fin 2048, f (halfPos 1 k) := by
  have h := Fin.sum_univ_add (a := 2048) (b := 2048) (f : Fin (2048 + 2048) → M)
  exact h.trans (congrArg₂ (· + ·)
    (Finset.sum_congr rfl fun k _ => congrArg f (Fin.ext (by simp [halfPos])))
    (Finset.sum_congr rfl fun k _ => congrArg f (Fin.ext (by simp [halfPos]; omega))))

/-- The two-step accumulation from a zero start is the whole contraction. -/
theorem accumulate_eq (f : Fin 4096 → EReal) :
    (0 + ∑ k : Fin 2048, f (halfPos 0 k)) + ∑ k : Fin 2048, f (halfPos 1 k) = ∑ k : Fin 4096, f k := by
  rw [zero_add, sum_halves]

end Cert.GroupedGemm

end
-- ==== Proof.RefValue.lean ====
/-
  The reference program computes the masked grouped product.

  Entry by entry: the reference scales each activation entry by the scale of its 128-wide block
  (a reshape to blocks, a broadcast of the scales along the block, a product, a reshape back),
  does the same to each weight entry with the scale of its 128 × 128 block, contracts the two over
  all 4096 positions with the expert as a batch axis, and keeps the rows below the expert's count.
  A reshape reads the entry at the same row-major position, so entry `k` of a row lies in block
  `k / 128`; a broadcast reads its operand at the kept coordinates.
-/
import proofs.«421645_j34548716929125_2_alg».proof.Proof.Gen.ReferenceIdeal.Read
import proofs.«421645_j34548716929125_2_alg».proof.Proof.Spec

noncomputable section

open scoped BigOperators

namespace Cert.GroupedGemm.Reference

open Idealize.ShloMosaic Idealize.ShloMosaic.ValueIdx Cert.ReferenceIdeal Cert.ReferenceIdeal.Read Cert.GroupedGemm

/-- A rank-3 index is determined by its three coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (match d with | ⟨0, _⟩ => h0 | ⟨1, _⟩ => h1 | ⟨2, _⟩ => h2)

/-- The scaled activation at `(e, r, k)`: the entry times the scale of block `k / 128` of its row. -/
theorem scaled_act_apply (x0 : (⟨S64x256x4096, .f32⟩ : BufTy).Contents (Elt Ideal)) (x1 : (⟨S64x256x32, .f32⟩ : BufTy).Contents (Elt Ideal))
    (e : Fin 64) (r : Fin 256) (k : Fin 4096) :
    val_main_v4 (F := Ideal) x0 x1 (ix3 e r k) = x0 (ix3 e r k) * x1 (ix3 e r (kblock k)) := by
  have he := e.isLt; have hr := r.isLt; have hk := k.isLt
  rw [val_main_v4_apply, val_main_v3_apply, val_main_v0_apply, val_main_v2_apply, val_main_v1_apply]
  show x0 _ * x1 _ = _
  congr 1
  · refine congrArg x0 (idx3_eq _ e r k ?_ ?_ ?_)
    · show ((((((e.val * 256 + r.val) * 4096 + k.val) / 1048576) * 256 + ((e.val * 256 + r.val) * 4096 + k.val) / 4096 % 256) * 32 + ((e.val * 256 + r.val) * 4096 + k.val) / 128 % 32) * 128 + ((e.val * 256 + r.val) * 4096 + k.val) % 128) / 1048576 = e.val
      omega
    · show ((((((e.val * 256 + r.val) * 4096 + k.val) / 1048576) * 256 + ((e.val * 256 + r.val) * 4096 + k.val) / 4096 % 256) * 32 + ((e.val * 256 + r.val) * 4096 + k.val) / 128 % 32) * 128 + ((e.val * 256 + r.val) * 4096 + k.val) % 128) / 4096 % 256 = r.val
      omega
    · show ((((((e.val * 256 + r.val) * 4096 + k.val) / 1048576) * 256 + ((e.val * 256 + r.val) * 4096 + k.val) / 4096 % 256) * 32 + ((e.val * 256 + r.val) * 4096 + k.val) / 128 % 32) * 128 + ((e.val * 256 + r.val) * 4096 + k.val) % 128) % 4096 = k.val
      omega
  · refine congrArg x1 (idx3_eq _ e r (kblock k) ?_ ?_ ?_)
    · show ((e.val * 256 + r.val) * 4096 + k.val) / 1048576 = e.val
      omega
    · show ((e.val * 256 + r.val) * 4096 + k.val) / 4096 % 256 = r.val
      omega
    · show ((e.val * 256 + r.val) * 4096 + k.val) / 128 % 32 = k.val / 128
      omega

/-- The scaled weight at `(e, n, k)`: the entry times the scale of block `(n / 128, k / 128)`. -/
theorem scaled_weight_apply (x2 : (⟨S64x1024x4096, .f32⟩ : BufTy).Contents (Elt Ideal)) (x3 : (⟨S64x8x32, .f32⟩ : BufTy).Contents (Elt Ideal))
    (e : Fin 64) (n : Fin 1024) (k : Fin 4096) :
    val_main_v9 (F := Ideal) x2 x3 (ix3 e n k) = x2 (ix3 e n k) * x3 (ix3 e (nblock n) (kblock k)) := by
  have he := e.isLt; have hn := n.isLt; have hk := k.isLt
  rw [val_main_v9_apply, val_main_v8_apply, val_main_v5_apply, val_main_v7_apply, val_main_v6_apply]
  show x2 _ * x3 _ = _
  congr 1
  · refine congrArg x2 (idx3_eq _ e n k ?_ ?_ ?_)
    · show (((((((e.val * 1024 + n.val) * 4096 + k.val) / 4194304) * 8 + ((e.val * 1024 + n.val) * 4096 + k.val) / 524288 % 8) * 128 + ((e.val * 1024 + n.val) * 4096 + k.val) / 4096 % 128) * 32 + ((e.val * 1024 + n.val) * 4096 + k.val) / 128 % 32) * 128 + ((e.val * 1024 + n.val) * 4096 + k.val) % 128) / 4194304 = e.val
      omega
    · show (((((((e.val * 1024 + n.val) * 4096 + k.val) / 4194304) * 8 + ((e.val * 1024 + n.val) * 4096 + k.val) / 524288 % 8) * 128 + ((e.val * 1024 + n.val) * 4096 + k.val) / 4096 % 128) * 32 + ((e.val * 1024 + n.val) * 4096 + k.val) / 128 % 32) * 128 + ((e.val * 1024 + n.val) * 4096 + k.val) % 128) / 4096 % 1024 = n.val
      omega
    · show (((((((e.val * 1024 + n.val) * 4096 + k.val) / 4194304) * 8 + ((e.val * 1024 + n.val) * 4096 + k.val) / 524288 % 8) * 128 + ((e.val * 1024 + n.val) * 4096 + k.val) / 4096 % 128) * 32 + ((e.val * 1024 + n.val) * 4096 + k.val) / 128 % 32) * 128 + ((e.val * 1024 + n.val) * 4096 + k.val) % 128) % 4096 = k.val
      omega
  · refine congrArg x3 (idx3_eq _ e (nblock n) (kblock k) ?_ ?_ ?_)
    · show ((e.val * 1024 + n.val) * 4096 + k.val) / 4194304 = e.val
      omega
    · show ((e.val * 1024 + n.val) * 4096 + k.val) / 524288 % 8 = n.val / 128
      omega
    · show ((e.val * 1024 + n.val) * 4096 + k.val) / 128 % 32 = k.val / 128
      omega

/-- The reference's result is the masked grouped product of its five arguments. -/
theorem value_eq (x0 : (⟨S64x256x4096, .f32⟩ : BufTy).Contents (Elt Ideal)) (x1 : (⟨S64x256x32, .f32⟩ : BufTy).Contents (Elt Ideal))
    (x2 : (⟨S64x1024x4096, .f32⟩ : BufTy).Contents (Elt Ideal)) (x3 : (⟨S64x8x32, .f32⟩ : BufTy).Contents (Elt Ideal))
    (x4 : (⟨S64, .i32⟩ : BufTy).Contents (Elt Ideal)) :
    val_main_v19 (F := Ideal) x0 x1 x2 x3 x4 = result x0 x1 x2 x3 x4 := by
  funext i
  obtain ⟨e, r, n, rfl⟩ : ∃ (e : Fin 64) (r : Fin 256) (n : Fin 1024), i = ix3 e r n := ⟨i 0, i 1, i 2, eq_ix3 i⟩
  rw [val_main_v19_apply, val_main_v18_apply, val_main_call0_v0_apply, val_main_v17_apply, val_main_v16_apply,
    val_main_v14_apply, val_main_v12_apply, val_main_v11_apply, val_main_v15_apply, val_main_v13_apply,
    val_main_v10_apply, val_main_call0_v1_apply, val_main_cst_apply]
  show Scalar.select (IntOp.cmpi .slt (BitVec.ofNat 32 r.val) (x4 _))
      (∑ k : Fin 4096, val_main_v4 (F := Ideal) x0 x1 (lidx_main_v10 (ix3 e r n) k) * val_main_v9 (F := Ideal) x2 x3 (ridx_main_v10 (ix3 e r n) k))
      (Ideal.ofBits .f32 0x00000000#32) = _
  rw [Ideal.ofBits_zero_f32]
  unfold result keep term
  have hm : (idx_main_v13 (idx_main_v15 (idx_main_v17 (idx_main_call0_v0 (ix3 e r n))))) = ix1 e :=
    funext fun a => match a with | ⟨0, _⟩ => rfl
  rw [hm]
  refine congrArg (fun s => Scalar.select _ s 0) (Finset.sum_congr rfl fun k _ => ?_)
  have hl : lidx_main_v10 (ix3 e r n) k = ix3 e r k := funext fun a => match a with | ⟨0, _⟩ => rfl | ⟨1, _⟩ => rfl | ⟨2, _⟩ => rfl
  have hr : ridx_main_v10 (ix3 e r n) k = ix3 e n k := funext fun a => match a with | ⟨0, _⟩ => rfl | ⟨1, _⟩ => rfl | ⟨2, _⟩ => rfl
  rw [hl, hr, scaled_act_apply, scaled_weight_apply]

end Cert.GroupedGemm.Reference

end
-- ==== Proof.Tile.lean ====
/-
  One K-tile's contribution, entry by entry.

  At a grid point the kernel body holds a 256 × 2048 tile of activations with its 256 × 16 block
  scales and a 1024 × 2048 tile of weights with its 8 × 16 block scales.  It scales each activation
  entry `(r, k)` by the scale `(r, k / 128)`, each weight entry `(n, k)` by the scale
  `(n / 128, k / 128)` (a reshape into 128-wide blocks, a broadcast of the scales along the blocks,
  a product, a reshape back), contracts the two scaled tiles over the tile's 2048 positions and adds
  the result to what the accumulator held.  At the exact reals the narrowing to bf16 is the identity
  and the matrix unit's product into a zero start is the plain sum of products.

  The last body of an expert then keeps the rows below the expert's token count and writes zero
  elsewhere.
-/
import proofs.«421645_j34548716929125_2_alg».proof.Proof.Gen.KernelIdeal.Skeleton
import proofs.«421645_j34548716929125_2_alg».proof.Proof.Spec
import Idealize.ShloMosaic.Lib.Pipeline.Value
import Idealize.ShloMosaic.Lib.ValueIdx
import Idealize.ShloMosaic.PureOps.Ideal.Laws

noncomputable section

open scoped BigOperators

namespace Cert.GroupedGemm.Tile

open Idealize.ShloMosaic Idealize.ShloMosaic.ValueIdx Cert.KernelIdeal Cert.KernelIdeal.Gen Cert.GroupedGemm

/-- The 128-wide block of a position inside a 2048-wide tile, and the position inside the block. -/
def tblock (k : Fin 2048) : Fin 16 := ⟨k.val / 128, by have := k.isLt; omega⟩
def tlane (k : Fin 2048) : Fin 128 := ⟨k.val % 128, Nat.mod_lt _ (by decide)⟩
/-- The position of an output column inside its 128-wide block. -/
def nlane (n : Fin 1024) : Fin 128 := ⟨n.val % 128, Nat.mod_lt _ (by decide)⟩

/-- The scaled activation tile: entry `(r, k)` is the tile's entry times the scale of block `k / 128` of row `r`. -/
theorem scaled_act_apply (v3 : Vec Ideal S1x256x2048 .f32) (v5 : Vec Ideal S1x1x256x16 .f32)
    (h1 : S1x256x2048.ShapeCasts S256x2048) (h2 : S256x2048.ShapeCasts S256x16x128) (h3 : S1x1x256x16.ShapeCasts S256x16)
    (h4 : S256x16.ShapeCasts S256x16x1) (h5 : S256x16x1.Broadcasts S256x16x128) (h6 : S256x16x128.ShapeCasts S256x2048)
    (r : Fin 256) (k : Fin 2048) :
    (shapeCast S256x2048 (mulf (F := Ideal) (shapeCast S256x16x128 (shapeCast S256x2048 v3 h1) h2)
        (broadcastTo S256x16x128 (shapeCast S256x16x1 (shapeCast S256x16 v5 h3) h4) h5)) h6 : FVec Ideal S256x2048 .f32) (ix2 r k)
      = v3 (ix3 0 r k) * v5 (ix4 0 0 r (tblock k)) := by
  have hr := r.isLt; have hk := k.isLt
  refine (shapeCast_apply _ h6 (ix2 r k) (ix3 r (tblock k) (tlane k)) (by
    rewrite [Shape.rowMajor_val_three, Shape.rowMajor_val_two]
    show (r.val * 16 + k.val / 128) * 128 + k.val % 128 = r.val * 2048 + k.val
    omega)).trans ?_
  show shapeCast S256x16x128 (shapeCast S256x2048 v3 h1) h2 (ix3 r (tblock k) (tlane k))
      * broadcastTo S256x16x128 (shapeCast S256x16x1 (shapeCast S256x16 v5 h3) h4) h5 (ix3 r (tblock k) (tlane k)) = _
  congr 1
  · refine (shapeCast_apply _ h2 (ix3 r (tblock k) (tlane k)) (ix2 r k) (by
      rewrite [Shape.rowMajor_val_three, Shape.rowMajor_val_two]
      show r.val * 2048 + k.val = (r.val * 16 + k.val / 128) * 128 + k.val % 128
      omega)).trans ?_
    exact shapeCast_apply v3 h1 (ix2 r k) (ix3 0 r k) (by
      rewrite [Shape.rowMajor_val_three, Shape.rowMajor_val_two]
      show (0 * 256 + r.val) * 2048 + k.val = r.val * 2048 + k.val
      omega)
  · refine (broadcastTo_apply _ h5 (ix3 r (tblock k) (tlane k)) (ix3 r (tblock k) (0 : Fin 1)) (fun a => match a with
      | ⟨0, _⟩ => by show r.val = if (256 : Nat) = 1 then 0 else r.val; rw [if_neg (by decide)]
      | ⟨1, _⟩ => by show k.val / 128 = if (16 : Nat) = 1 then 0 else k.val / 128; rw [if_neg (by decide)]
      | ⟨2, _⟩ => by show 0 = if (1 : Nat) = 1 then 0 else k.val % 128; rw [if_pos rfl])).trans ?_
    refine (shapeCast_apply _ h4 (ix3 r (tblock k) (0 : Fin 1)) (ix2 r (tblock k)) (by
      rewrite [Shape.rowMajor_val_three, Shape.rowMajor_val_two]
      show r.val * 16 + k.val / 128 = (r.val * 16 + k.val / 128) * 1 + 0
      omega)).trans ?_
    exact shapeCast_apply v5 h3 (ix2 r (tblock k)) (ix4 0 0 r (tblock k)) (by
      rewrite [Shape.rowMajor_val_four, Shape.rowMajor_val_two]
      show ((0 * 1 + 0) * 256 + r.val) * 16 + k.val / 128 = r.val * 16 + k.val / 128
      omega)

/-- The scaled weight tile: entry `(n, k)` is the tile's entry times the scale of block `(n / 128, k / 128)`. -/
theorem scaled_weight_apply (v13 : Vec Ideal S1x1024x2048 .f32) (v15 : Vec Ideal S1x1x8x16 .f32)
    (h1 : S1x1024x2048.ShapeCasts S1024x2048) (h2 : S1024x2048.ShapeCasts S8x128x16x128) (h3 : S1x1x8x16.ShapeCasts S8x16)
    (h4 : S8x16.ShapeCasts S8x1x16x1) (h5 : S8x1x16x1.Broadcasts S8x128x16x128) (h6 : S8x128x16x128.ShapeCasts S1024x2048)
    (n : Fin 1024) (k : Fin 2048) :
    (shapeCast S1024x2048 (mulf (F := Ideal) (shapeCast S8x128x16x128 (shapeCast S1024x2048 v13 h1) h2)
        (broadcastTo S8x128x16x128 (shapeCast S8x1x16x1 (shapeCast S8x16 v15 h3) h4) h5)) h6 : FVec Ideal S1024x2048 .f32) (ix2 n k)
      = v13 (ix3 0 n k) * v15 (ix4 0 0 (nblock n) (tblock k)) := by
  have hn := n.isLt; have hk := k.isLt
  refine (shapeCast_apply _ h6 (ix2 n k) (ix4 (nblock n) (nlane n) (tblock k) (tlane k)) (by
    rewrite [Shape.rowMajor_val_four, Shape.rowMajor_val_two]
    show ((n.val / 128 * 128 + n.val % 128) * 16 + k.val / 128) * 128 + k.val % 128 = n.val * 2048 + k.val
    omega)).trans ?_
  show shapeCast S8x128x16x128 (shapeCast S1024x2048 v13 h1) h2 (ix4 (nblock n) (nlane n) (tblock k) (tlane k))
      * broadcastTo S8x128x16x128 (shapeCast S8x1x16x1 (shapeCast S8x16 v15 h3) h4) h5 (ix4 (nblock n) (nlane n) (tblock k) (tlane k)) = _
  congr 1
  · refine (shapeCast_apply _ h2 (ix4 (nblock n) (nlane n) (tblock k) (tlane k)) (ix2 n k) (by
      rewrite [Shape.rowMajor_val_four, Shape.rowMajor_val_two]
      show n.val * 2048 + k.val = ((n.val / 128 * 128 + n.val % 128) * 16 + k.val / 128) * 128 + k.val % 128
      omega)).trans ?_
    exact shapeCast_apply v13 h1 (ix2 n k) (ix3 0 n k) (by
      rewrite [Shape.rowMajor_val_three, Shape.rowMajor_val_two]
      show (0 * 1024 + n.val) * 2048 + k.val = n.val * 2048 + k.val
      omega)
  · refine (broadcastTo_apply _ h5 (ix4 (nblock n) (nlane n) (tblock k) (tlane k)) (ix4 (nblock n) (0 : Fin 1) (tblock k) (0 : Fin 1)) (fun a => match a with
      | ⟨0, _⟩ => by show n.val / 128 = if (8 : Nat) = 1 then 0 else n.val / 128; rw [if_neg (by decide)]
      | ⟨1, _⟩ => by show 0 = if (1 : Nat) = 1 then 0 else n.val % 128; rw [if_pos rfl]
      | ⟨2, _⟩ => by show k.val / 128 = if (16 : Nat) = 1 then 0 else k.val / 128; rw [if_neg (by decide)]
      | ⟨3, _⟩ => by show 0 = if (1 : Nat) = 1 then 0 else k.val % 128; rw [if_pos rfl])).trans ?_
    refine (shapeCast_apply _ h4 (ix4 (nblock n) (0 : Fin 1) (tblock k) (0 : Fin 1)) (ix2 (nblock n) (tblock k)) (by
      rewrite [Shape.rowMajor_val_four, Shape.rowMajor_val_two]
      show n.val / 128 * 16 + k.val / 128 = ((n.val / 128 * 1 + 0) * 16 + k.val / 128) * 1 + 0
      omega)).trans ?_
    exact shapeCast_apply v15 h3 (ix2 (nblock n) (tblock k)) (ix4 0 0 (nblock n) (tblock k)) (by
      rewrite [Shape.rowMajor_val_four, Shape.rowMajor_val_two]
      show ((0 * 1 + 0) * 8 + n.val / 128) * 16 + k.val / 128 = n.val / 128 * 16 + k.val / 128
      omega)

/-! The contraction's operand indices: the output entry `(r, n)` at contraction position `k` reads the
    left tile at `(r, k)` and the right tile at `(n, k)`. -/

theorem lhs_axis0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_axis1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
theorem rhs_axis0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_axis1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The accumulating store's value at `(r, n)`: what the accumulator held there plus the tile's 2048 products. -/
theorem accumulated_apply (v3 : Vec Ideal S1x256x2048 .f32) (v5 : Vec Ideal S1x1x256x16 .f32) (v13 : Vec Ideal S1x1024x2048 .f32)
    (v15 : Vec Ideal S1x1x8x16 .f32) (v24 : Vec Ideal S256x1024 .f32) (r : Fin 256) (n : Fin 1024) :
    k0_pay2 (F := Ideal) v3 v5 v13 v15 v24 (ix2 r n)
      = v24 (ix2 r n) + ∑ k : Fin 2048, (v3 (ix3 0 r k) * v5 (ix4 0 0 r (tblock k))) * (v13 (ix3 0 n k) * v15 (ix4 0 0 (nblock n) (tblock k))) := by
  unfold k0_pay2
  refine (congrFun (shapeCast_self _ _) (ix2 r n)).trans ?_
  refine congrArg (v24 (ix2 r n) + ·) ?_
  refine (Ideal.matmul_constant_zero_apply dot_S256x2048_S1024x2048_S256x1024_1_1_0_0_n_n none _ _ (ix2 r n)).trans ?_
  refine (Equiv.sum_comp (contrEquiv1 dot_S256x2048_S1024x2048_S256x1024_1_1_0_0_n_n 2048 rfl rfl).symm _).symm.trans ?_
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 r n) ((contrEquiv1 dot_S256x2048_S1024x2048_S256x1024_1_1_0_0_n_n 2048 rfl rfl).symm k) = ix2 r k := funext fun a => Fin.ext (by
    match a with
    | ⟨0, _⟩ => exact lhs_axis0 _ _
    | ⟨1, _⟩ => exact (lhs_axis1 _ _).trans hk)
  have er : dot_S256x2048_S1024x2048_S256x1024_1_1_0_0_n_n.rhsIdx (ix2 r n) ((contrEquiv1 dot_S256x2048_S1024x2048_S256x1024_1_1_0_0_n_n 2048 rfl rfl).symm k) = ix2 n k := funext fun a => Fin.ext (by
    match a with
    | ⟨0, _⟩ => exact rhs_axis0 _ _
    | ⟨1, _⟩ => exact (rhs_axis1 _ _).trans hk)
  rw [el, er]
  exact congrArg₂ (· * ·) (scaled_act_apply v3 v5 _ _ _ _ _ _ r k) (scaled_weight_apply v13 v15 _ _ _ _ _ _ n k)

/-- The zero block the first body of an expert stores into the accumulator. -/
theorem reset_apply (j : S256x1024.Idx) : k0_pay1 (F := Ideal) j = 0 := by
  unfold k0_pay1
  refine (congrFun (shapeCast_self _ _) j).trans ?_
  exact Ideal.ofBits_zero_f32

/-- The masked block the last body of an expert stores: row `r` keeps the accumulator where `r` is below the
    expert's count `cnt` (signed), and is zero elsewhere. -/
theorem masked_apply (cnt : Elt Ideal .i32) (acc : Vec Ideal S256x1024 .f32) (r : Fin 256) (n : Fin 1024) :
    k0_pay3 (F := Ideal) cnt acc (ix3 0 r n)
      = Scalar.select (IntOp.cmpi .slt (BitVec.ofNat 32 r.val) cnt) (acc (ix2 r n)) 0 := by
  unfold k0_pay3
  refine (shapeCast_apply _ _ (ix3 0 r n) (ix2 r n) (by
    rewrite [Shape.rowMajor_val_three, Shape.rowMajor_val_two]
    show r.val * 1024 + n.val = (0 * 256 + r.val) * 1024 + n.val
    omega)).trans ?_
  show Scalar.select (IntOp.cmpi .slt (iota .tc S256x1024 32 [0] _ (ix2 r n)) cnt) (acc (ix2 r n)) (Ideal.ofBits .f32 0x00000000#32) = _
  rw [iota_single_apply, Ideal.ofBits_zero_f32]

end Cert.GroupedGemm.Tile

end
-- ==== Proof.Pieces.lean ====
/-
  What one run of the kernel body leaves behind, as values.

  The body is run in one of two ways.  On the first K-tile of an expert it stores a zero block into
  the accumulator, reads it back, and stores the accumulator plus the tile's contribution: the
  accumulator ends at "the tile's contribution added to the zero block".  On the second (last)
  K-tile it stores the accumulator it found plus the tile's contribution, reads that back, masks it
  with the expert's token count — the word of the count table at the expert's index — and stores the
  masked block into the output buffer.  Every load and store goes through a whole buffer, so a store
  leaves its payload and a load reads what the last store left.
-/
import proofs.«421645_j34548716929125_2_alg».proof.Proof.Gen.KernelIdeal.Frame
import proofs.«421645_j34548716929125_2_alg».proof.Proof.Tile
import Idealize.ShloMosaic.Lib.Pipeline.Value
import Idealize.ShloMosaic.Lib.Tactic

set_option maxRecDepth 16384

noncomputable section

open scoped BigOperators

namespace Cert.GroupedGemm.Pieces

open Idealize.ShloMosaic Idealize.ShloMosaic.TcCoe Idealize.ShloMosaic.ValueIdx Idealize.SL.Sem
open Cert.KernelIdeal Cert.KernelIdeal.Gen Cert.GroupedGemm

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The expert a grid point works on, as an index into the 64-entry count table. -/
def pointExpert (i : grid0.Coords) : Fin 64 := ⟨(i 0).val, (i 0).isLt⟩

theorem scratch_first (c : Dev nD) (i : grid0.Coords) (arg3 : Memref sig .tc .vmem S1x256x2048 .f32) (harg3 : arg3.IsWhole) (arg4 : Memref sig .tc .vmem S1x1x256x16 .f32) (harg4 : arg4.IsWhole) (arg5 : Memref sig .tc .vmem S1x1024x2048 .f32) (harg5 : arg5.IsWhole) (arg6 : Memref sig .tc .vmem S1x1x8x16 .f32) (harg6 : arg6.IsWhole) (arg7 : Memref sig .tc .vmem S1x256x1024 .bf16) (harg7 : arg7.IsWhole) (arg8 : Memref sig .tc .vmem S256x1024 .f32) (harg8 : arg8.IsWhole) (hc0 : cond0_0 i) (hc1 : ¬cond0_1 i)
    (x0 : Vec F S1x256x2048 .f32) (x1 : Vec F S1x1x256x16 .f32) (x2 : Vec F S1x1024x2048 .f32) (x3 : Vec F S1x1x8x16 .f32) (xt0 : TbBuf0 (F := F) c tbM0_0) :
    sout0_A_0 c i arg3 harg3 arg4 harg4 arg5 harg5 arg6 harg6 arg7 harg7 arg8 harg8 hc0 hc1 x0 x1 x2 x3 xt0
      = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3 xt0)]
  unfold kernelRun0_A
  dsimp only
  sl_unfold_words
  rw [View.canon_cons_unit_zero (S := S256x1024) hz2, View.readCov_unit_zero (S := S256x1024) _ hz2]
  simp only [View.readAt_eq_ld, harg3.read_unread, harg4.read_unread, harg5.read_unread, harg6.read_unread,
    View.ld_unit_zero (S := S1x256x2048) hz3, View.ld_unit_zero (S := S1x1x256x16) hz4,
    View.ld_unit_zero (S := S1x1024x2048) hz3, View.ld_unit_zero (S := S1x1x8x16) hz4]

theorem scratch_second (c : Dev nD) (i : grid0.Coords) (arg3 : Memref sig .tc .vmem S1x256x2048 .f32) (harg3 : arg3.IsWhole) (arg4 : Memref sig .tc .vmem S1x1x256x16 .f32) (harg4 : arg4.IsWhole) (arg5 : Memref sig .tc .vmem S1x1024x2048 .f32) (harg5 : arg5.IsWhole) (arg6 : Memref sig .tc .vmem S1x1x8x16 .f32) (harg6 : arg6.IsWhole) (arg7 : Memref sig .tc .vmem S1x256x1024 .bf16) (harg7 : arg7.IsWhole) (arg8 : Memref sig .tc .vmem S256x1024 .f32) (harg8 : arg8.IsWhole) (hc0 : ¬cond0_0 i) (hc1 : cond0_1 i)
    (x0 : Vec F S1x256x2048 .f32) (x1 : Vec F S1x1x256x16 .f32) (x2 : Vec F S1x1024x2048 .f32) (x3 : Vec F S1x1x8x16 .f32) (xt0 : TbBuf0 (F := F) c tbM0_0) (xs0 : Vec F S256x1024 .f32) :
    sout0_B_0 c i arg3 harg3 arg4 harg4 arg5 harg5 arg6 harg6 arg7 harg7 arg8 harg8 hc0 hc1 x0 x1 x2 x3 xt0 xs0
      = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xt0 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x256x2048) hz3, View.ld_unit_zero (S := S1x1x256x16) hz4,
    View.ld_unit_zero (S := S1x1024x2048) hz3, View.ld_unit_zero (S := S1x1x8x16) hz4, View.ld_unit_zero (S := S256x1024) hz2]

theorem out_second (c : Dev nD) (i : grid0.Coords) (arg3 : Memref sig .tc .vmem S1x256x2048 .f32) (harg3 : arg3.IsWhole) (arg4 : Memref sig .tc .vmem S1x1x256x16 .f32) (harg4 : arg4.IsWhole) (arg5 : Memref sig .tc .vmem S1x1024x2048 .f32) (harg5 : arg5.IsWhole) (arg6 : Memref sig .tc .vmem S1x1x8x16 .f32) (harg6 : arg6.IsWhole) (arg7 : Memref sig .tc .vmem S1x256x1024 .bf16) (harg7 : arg7.IsWhole) (arg8 : Memref sig .tc .vmem S256x1024 .f32) (harg8 : arg8.IsWhole) (hc0 : ¬cond0_0 i) (hc1 : cond0_1 i)
    (x0 : Vec F S1x256x2048 .f32) (x1 : Vec F S1x1x256x16 .f32) (x2 : Vec F S1x1024x2048 .f32) (x3 : Vec F S1x1x8x16 .f32) (xt0 : TbBuf0 (F := F) c tbM0_0) (xs0 : Vec F S256x1024 .f32) :
    out0_B_4 c i arg3 harg3 arg4 harg4 arg5 harg5 arg6 harg6 arg7 harg7 arg8 harg8 hc0 hc1 x0 x1 x2 x3 xt0 xs0
      = k0_pay3 (xt0 (ix1 (pointExpert i))) (k0_pay2 x0 x1 x2 x3 xs0) := by
  unfold out0_B_4
  rw [View.read_writes_eq_canon _ _ _ (cover0_B_4 c i arg3 harg3 arg4 harg4 arg5 harg5 arg6 harg6 arg7 harg7 arg8 harg8 hc0 hc1 x0 x1 x2 x3 xt0 xs0)]
  unfold kernelRun0_B
  dsimp only
  sl_unfold_words
  rw [View.canon_unit_zero hz3, View.readCov_unit_zero (S := S256x1024) _ hz2]
  simp only [View.readAt_eq_ld, harg3.read_unread, harg4.read_unread, harg5.read_unread, harg6.read_unread, harg8.read_unread,
    View.ld_unit_zero (S := S1x256x2048) hz3, View.ld_unit_zero (S := S1x1x256x16) hz4,
    View.ld_unit_zero (S := S1x1024x2048) hz3, View.ld_unit_zero (S := S1x1x8x16) hz4, View.ld_unit_zero (S := S256x1024) hz2]
  congr 1
  refine congrArg xt0 (funext fun a => Fin.ext ?_)
  match a with
  | ⟨0, _⟩ =>
    have h := congrFun (k0_off1_eq i) 0
    show k0_off1 i 0 + 1 * 0 = (i 0).val
    rw [h]
    rfl

end Cert.GroupedGemm.Pieces

end
-- ==== Proof.Blocks.lean ====
/-
  The blocks the kernel's windows hold at a grid point, as entries of the argument arrays.

  The grid runs over (expert, K-tile): point `t` is K-tile `t % 2` of expert `t / 2`.  There the
  activation window holds rows `0 … 255` and columns `2048 · (t % 2) + (0 … 2047)` of the expert's
  activations, and the weight window the same columns of the expert's weights.  The scale windows
  hold the matching 16 block scales of each row: the host first reshapes the 32 block scales of a
  row into 2 × 16 and moves the new axis to the front, so that the scales of K-tile `h` are the
  entries `16 · h + (0 … 15)` of the row of the argument.
-/
import proofs.«421645_j34548716929125_2_alg».proof.Proof.Gen.KernelIdeal.Frame
import proofs.«421645_j34548716929125_2_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.GroupedGemm.Blocks

open Idealize.ShloMosaic Idealize.ShloMosaic.TcCoe Idealize.ShloMosaic.ValueIdx Idealize.SL.Sem
open Cert.KernelIdeal Cert.KernelIdeal.Gen Cert.GroupedGemm

variable (m : (ℓ : Loc nD τ sig) → Buf (Elt Ideal) ℓ) (hO : Ok m)

/-- The expert and the K-tile of a grid point: the grid runs the two K-tiles of expert 0, then of expert 1, … -/
def expertOf (t : Fin (cfgM m hO).N) : Fin 64 := ⟨t.val / 2, by have := lt_of_lt_of_eq t.isLt (show (cfgM m hO).N = 128 from N_0); omega⟩
def halfOf (t : Fin (cfgM m hO).N) : Fin 2 := ⟨t.val % 2, Nat.mod_lt _ (by decide)⟩

/-- Scale column `j` of K-tile `h` is column `16 · h + j` of the argument's row. -/
def scaleCol (h : Fin 2) (j : Fin 16) : Fin 32 := ⟨h.val * 16 + j.val, by have := h.isLt; have := j.isLt; omega⟩

/-- The windows' block indices at every grid point, decided over the grid. -/
theorem index_facts : ∀ t : Fin grid0.N,
    (cc0_transform_0 (grid0.coords t) 0 = t.val / 2 ∧ cc0_transform_0 (grid0.coords t) 1 = 0 ∧ cc0_transform_0 (grid0.coords t) 2 = t.val % 2)
    ∧ (cc0_transform_1 (grid0.coords t) 0 = t.val / 2 ∧ cc0_transform_1 (grid0.coords t) 1 = t.val % 2 ∧ cc0_transform_1 (grid0.coords t) 2 = 0 ∧ cc0_transform_1 (grid0.coords t) 3 = 0)
    ∧ (cc0_transform_2 (grid0.coords t) 0 = t.val / 2 ∧ cc0_transform_2 (grid0.coords t) 1 = 0 ∧ cc0_transform_2 (grid0.coords t) 2 = t.val % 2)
    ∧ (cc0_transform_3 (grid0.coords t) 0 = t.val / 2 ∧ cc0_transform_3 (grid0.coords t) 1 = t.val % 2 ∧ cc0_transform_3 (grid0.coords t) 2 = 0 ∧ cc0_transform_3 (grid0.coords t) 3 = 0)
    ∧ (cc0_transform_4 (grid0.coords t) 0 = t.val / 2 ∧ cc0_transform_4 (grid0.coords t) 1 = 0 ∧ cc0_transform_4 (grid0.coords t) 2 = 0)
    ∧ (grid0.coords t 0).val = t.val / 2 :=
  (by decide +kernel : ∀ t : Fin grid0.N, _)

theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (match d with | ⟨0, _⟩ => h0 | ⟨1, _⟩ => h1 | ⟨2, _⟩ => h2)

theorem idx4_eq {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d :=
  funext fun x => Fin.ext (match x with | ⟨0, _⟩ => h0 | ⟨1, _⟩ => h1 | ⟨2, _⟩ => h2 | ⟨3, _⟩ => h3)

/-- The four input windows' blocks at point `t`, each at its literal shape. -/
abbrev actBlk (c : Dev nD) (t : Fin (cfgM m hO).N) : Vec Ideal S1x256x2048 .f32 := iblk m hO c 0 t
abbrev actScaleBlk (c : Dev nD) (t : Fin (cfgM m hO).N) : Vec Ideal S1x1x256x16 .f32 := iblk m hO c 1 t
abbrev weightBlk (c : Dev nD) (t : Fin (cfgM m hO).N) : Vec Ideal S1x1024x2048 .f32 := iblk m hO c 2 t
abbrev weightScaleBlk (c : Dev nD) (t : Fin (cfgM m hO).N) : Vec Ideal S1x1x8x16 .f32 := iblk m hO c 3 t

/-- The activation window at point `t`: entry `(r, k)` is the expert's activation at row `r`, position `k` of the K-tile. -/
theorem act_block_apply (c : Dev nD) (t : Fin (cfgM m hO).N) (r : Fin 256) (k : Fin 2048) :
    actBlk m hO c t (ix3 0 r k)
      = m ((c : Thread nD τ).loc main_arg0) (ix3 (expertOf m hO t) r (halfPos (halfOf m hO t) k)) := by
  show V m c main_arg0 ((((cfgM m hO).win 0).blk t).view.emb (ix3 0 r k)) = _
  rw [V_main_arg0]
  refine congrArg _ (idx3_eq _ _ _ _ ?_ ?_ ?_)
  · show cc0_transform_0 (grid0.coords t) 0 * 1 + 1 * 0 = t.val / 2
    rw [(index_facts t).1.1]; omega
  · show cc0_transform_0 (grid0.coords t) 1 * 256 + 1 * r.val = r.val
    rw [(index_facts t).1.2.1]; omega
  · show cc0_transform_0 (grid0.coords t) 2 * 2048 + 1 * k.val = t.val % 2 * 2048 + k.val
    rw [(index_facts t).1.2.2]; omega

/-- The weight window at point `t`: entry `(n, k)` is the expert's weight at row `n`, position `k` of the K-tile. -/
theorem weight_block_apply (c : Dev nD) (t : Fin (cfgM m hO).N) (n : Fin 1024) (k : Fin 2048) :
    weightBlk m hO c t (ix3 0 n k)
      = m ((c : Thread nD τ).loc main_arg2) (ix3 (expertOf m hO t) n (halfPos (halfOf m hO t) k)) := by
  show V m c main_arg2 ((((cfgM m hO).win 2).blk t).view.emb (ix3 0 n k)) = _
  rw [V_main_arg2]
  refine congrArg _ (idx3_eq _ _ _ _ ?_ ?_ ?_)
  · show cc0_transform_2 (grid0.coords t) 0 * 1 + 1 * 0 = t.val / 2
    rw [(index_facts t).2.2.1.1]; omega
  · show cc0_transform_2 (grid0.coords t) 1 * 1024 + 1 * n.val = n.val
    rw [(index_facts t).2.2.1.2.1]; omega
  · show cc0_transform_2 (grid0.coords t) 2 * 2048 + 1 * k.val = t.val % 2 * 2048 + k.val
    rw [(index_facts t).2.2.1.2.2]; omega

/-- The activation scales as the region finds them: the argument's rows of 32 reshaped to 2 × 16, the new axis moved to the front. -/
theorem V_act_scales (c : Dev nD) :
    (V m c main_v1 : S64x2x256x16.Idx → EReal)
      = transpose S64x2x256x16 [0, 2, 1, 3] (shapeCast S64x256x2x16 (m ((c : Thread nD τ).loc main_arg1)) shapeCasts_S64x256x32_S64x256x2x16) transposes_S64x256x2x16_S64x2x256x16_0_2_1_3 := by
  dsimp only [V, hostOps0]; after_results; rfl

/-- The weight scales as the region finds them, likewise. -/
theorem V_weight_scales (c : Dev nD) :
    (V m c main_v3 : S64x2x8x16.Idx → EReal)
      = transpose S64x2x8x16 [0, 2, 1, 3] (shapeCast S64x8x2x16 (m ((c : Thread nD τ).loc main_arg3)) shapeCasts_S64x8x32_S64x8x2x16) transposes_S64x8x2x16_S64x2x8x16_0_2_1_3 := by
  dsimp only [V, hostOps0]; after_results; rfl

/-- The activation-scale window at point `t`: entry `(r, j)` is the scale of row `r`, block `16 · (t % 2) + j`. -/
theorem act_scale_block_apply (c : Dev nD) (t : Fin (cfgM m hO).N) (r : Fin 256) (j : Fin 16) :
    actScaleBlk m hO c t (ix4 0 0 r j)
      = m ((c : Thread nD τ).loc main_arg1) (ix3 (expertOf m hO t) r (scaleCol (halfOf m hO t) j)) := by
  have ht := lt_of_lt_of_eq t.isLt (show (cfgM m hO).N = 128 from N_0)
  have hr := r.isLt; have hj := j.isLt
  show V m c main_v1 ((((cfgM m hO).win 1).blk t).view.emb (ix4 0 0 r j)) = _
  have e : (((cfgM m hO).win 1).blk t).view.emb (ix4 0 0 r j) = ix4 (expertOf m hO t) (halfOf m hO t) r j := by
    refine idx4_eq _ _ _ _ _ ?_ ?_ ?_ ?_
    · show cc0_transform_1 (grid0.coords t) 0 * 1 + 1 * 0 = t.val / 2
      rw [(index_facts t).2.1.1]; omega
    · show cc0_transform_1 (grid0.coords t) 1 * 1 + 1 * 0 = t.val % 2
      rw [(index_facts t).2.1.2.1]; omega
    · show cc0_transform_1 (grid0.coords t) 2 * 256 + 1 * r.val = r.val
      rw [(index_facts t).2.1.2.2.1]; omega
    · show cc0_transform_1 (grid0.coords t) 3 * 16 + 1 * j.val = j.val
      rw [(index_facts t).2.1.2.2.2]; omega
  rw [e, V_act_scales]
  refine (transpose_apply _ _ _ (ix4 (expertOf m hO t) (halfOf m hO t) r j) (ix4 (expertOf m hO t) r (halfOf m hO t) j) (fun b => match b with
    | ⟨0, _⟩ => rfl | ⟨1, _⟩ => rfl | ⟨2, _⟩ => rfl | ⟨3, _⟩ => rfl)).trans ?_
  exact shapeCast_apply _ _ (ix4 (expertOf m hO t) r (halfOf m hO t) j) (ix3 (expertOf m hO t) r (scaleCol (halfOf m hO t) j)) (by
    rewrite [Shape.rowMajor_val_three, Shape.rowMajor_val_four]
    show (t.val / 2 * 256 + r.val) * 32 + (t.val % 2 * 16 + j.val) = ((t.val / 2 * 256 + r.val) * 2 + t.val % 2) * 16 + j.val
    omega)

/-- The weight-scale window at point `t`: entry `(b, j)` is the scale of row block `b`, block `16 · (t % 2) + j`. -/
theorem weight_scale_block_apply (c : Dev nD) (t : Fin (cfgM m hO).N) (b : Fin 8) (j : Fin 16) :
    weightScaleBlk m hO c t (ix4 0 0 b j)
      = m ((c : Thread nD τ).loc main_arg3) (ix3 (expertOf m hO t) b (scaleCol (halfOf m hO t) j)) := by
  have ht := lt_of_lt_of_eq t.isLt (show (cfgM m hO).N = 128 from N_0)
  have hb := b.isLt; have hj := j.isLt
  show V m c main_v3 ((((cfgM m hO).win 3).blk t).view.emb (ix4 0 0 b j)) = _
  have e : (((cfgM m hO).win 3).blk t).view.emb (ix4 0 0 b j) = ix4 (expertOf m hO t) (halfOf m hO t) b j := by
    refine idx4_eq _ _ _ _ _ ?_ ?_ ?_ ?_
    · show cc0_transform_3 (grid0.coords t) 0 * 1 + 1 * 0 = t.val / 2
      rw [(index_facts t).2.2.2.1.1]; omega
    · show cc0_transform_3 (grid0.coords t) 1 * 1 + 1 * 0 = t.val % 2
      rw [(index_facts t).2.2.2.1.2.1]; omega
    · show cc0_transform_3 (grid0.coords t) 2 * 8 + 1 * b.val = b.val
      rw [(index_facts t).2.2.2.1.2.2.1]; omega
    · show cc0_transform_3 (grid0.coords t) 3 * 16 + 1 * j.val = j.val
      rw [(index_facts t).2.2.2.1.2.2.2]; omega
  rw [e, V_weight_scales]
  refine (transpose_apply _ _ _ (ix4 (expertOf m hO t) (halfOf m hO t) b j) (ix4 (expertOf m hO t) b (halfOf m hO t) j) (fun a => match a with
    | ⟨0, _⟩ => rfl | ⟨1, _⟩ => rfl | ⟨2, _⟩ => rfl | ⟨3, _⟩ => rfl)).trans ?_
  exact shapeCast_apply _ _ (ix4 (expertOf m hO t) b (halfOf m hO t) j) (ix3 (expertOf m hO t) b (scaleCol (halfOf m hO t) j)) (by
    rewrite [Shape.rowMajor_val_three, Shape.rowMajor_val_four]
    show (t.val / 2 * 8 + b.val) * 32 + (t.val % 2 * 16 + j.val) = ((t.val / 2 * 8 + b.val) * 2 + t.val % 2) * 16 + j.val
    omega)

end Cert.GroupedGemm.Blocks

end
-- ==== Proof.KernelValue.lean ====
/-
  What the idealized kernel leaves in its result array.

  The grid runs the two K-tiles of expert 0, then of expert 1, and so on.  At an even point the
  body resets the accumulator and adds the first tile's contribution: for entry `(r, n)` the 2048
  products of the contraction's first half, added to zero.  At the following odd point it adds the
  second half's products, so the accumulator holds `(0 + first half) + second half`, which over the
  extended reals is the sum over all 4096 positions; it then keeps the rows below the expert's
  token count and writes the block out.  The output window is written back exactly after the odd
  points, block `t / 2` each time, and these 64 blocks cover the result array; so the array ends
  holding the masked grouped product of the argument arrays.
-/
import proofs.«421645_j34548716929125_2_alg».proof.Proof.Pieces
import proofs.«421645_j34548716929125_2_alg».proof.Proof.Blocks

set_option maxRecDepth 16384

noncomputable section

open scoped BigOperators

namespace Cert.GroupedGemm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.GroupedGemm Cert.GroupedGemm.Blocks Cert.GroupedGemm.Pieces Cert.GroupedGemm.Tile

variable (m : (ℓ : Loc nD τ sig) → Buf (Elt Ideal) ℓ) (ρ : Dev nD → PrngReg) (hO : Ok m)

/-- The masked grouped product of the argument arrays on core `c`. -/
abbrev value (c : Dev nD) : Buf (Elt Ideal) ((c : Thread nD τ).loc main_v4) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The products a body forms at point `t` for entry `(r, n)` are the terms of the K-tile's half of the contraction. -/
theorem tile_contribution (c : Dev nD) (t : Fin (cfgM m hO).N) (r : Fin 256) (n : Fin 1024) :
    ∑ k : Fin 2048, ((actBlk m hO c t) (ix3 0 r k) * (actScaleBlk m hO c t) (ix4 0 0 r (tblock k)))
        * ((weightBlk m hO c t) (ix3 0 n k) * (weightScaleBlk m hO c t) (ix4 0 0 (nblock n) (tblock k)))
      = ∑ k : Fin 2048, term (m ((c : Thread nD τ).loc main_arg0)) (m ((c : Thread nD τ).loc main_arg1)) (m ((c : Thread nD τ).loc main_arg2))
          (m ((c : Thread nD τ).loc main_arg3)) (expertOf m hO t) r n (halfPos (halfOf m hO t) k) := by
  refine Finset.sum_congr rfl fun k _ => ?_
  rw [act_block_apply, act_scale_block_apply, weight_block_apply, weight_scale_block_apply]
  unfold term
  have e : scaleCol (halfOf m hO t) (tblock k) = kblock (halfPos (halfOf m hO t) k) :=
    Fin.ext (by have := k.isLt; show t.val % 2 * 16 + k.val / 128 = (t.val % 2 * 2048 + k.val) / 128; omega)
  rw [e]

/-- After the first K-tile of an expert the accumulator holds the tile's contribution added to the zero block. -/
theorem scratch_even (c : Dev nD) (t : Fin (cfgM m hO).N) (h0 : t.val % 2 = 0) :
    (outsAt0 m hO c t.val t.isLt).2
      = k0_pay2 (actBlk m hO c t) (actScaleBlk m hO c t)
          (weightBlk m hO c t) (weightScaleBlk m hO c t) (k0_pay1 (F := Ideal)) := by
  have h1 : ¬ t.val % 2 = 1 := by omega
  rw [outsAt0_A m hO c t h0 h1]
  dsimp only
  exact scratch_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h1 ((hcond0_1 t).mp h)) (iblk m hO c 0 t) (iblk m hO c 1 t) (iblk m hO c 2 t) (iblk m hO c 3 t) (tbl m 0)

/-- After the second K-tile of an expert the output buffer holds the masked accumulation. -/
theorem out_odd (c : Dev nD) (t : Fin (cfgM m hO).N) (h1 : t.val % 2 = 1) :
    (outsAt0 m hO c t.val t.isLt).1
      = k0_pay3 (tbl m 0 (ix1 (pointExpert (grid0.coords t))))
          (k0_pay2 (actBlk m hO c t) (actScaleBlk m hO c t)
            (weightBlk m hO c t) (weightScaleBlk m hO c t)
            (outsAt0 m hO c (t.val - 1) (Nat.lt_of_le_of_lt (Nat.sub_le _ _) t.isLt)).2) := by
  have h0 : ¬ t.val % 2 = 0 := by omega
  rw [outsAt0_B m hO c t h0 h1]
  dsimp only
  exact out_second c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_1 t).mpr h1) (iblk m hO c 0 t) (iblk m hO c 1 t) (iblk m hO c 2 t) (iblk m hO c 3 t) (tbl m 0) (outsAt0 m hO c (t.val - 1) (Nat.lt_of_le_of_lt (Nat.sub_le _ _) t.isLt)).2

/-- Entry `(r, n)` of what the last body of expert `t / 2` stores is the masked grouped product's entry `(t / 2, r, n)`. -/
theorem out_odd_apply (c : Dev nD) (t : Fin (cfgM m hO).N) (h1 : t.val % 2 = 1) (r : Fin 256) (n : Fin 1024) :
    (outsAt0 m hO c t.val t.isLt).1 (ix3 0 r n) = value m c (ix3 (expertOf m hO t) r n) := by
  have ht := lt_of_lt_of_eq t.isLt (show (cfgM m hO).N = 128 from N_0)
  have hlt : t.val - 1 < (cfgM m hO).N := Nat.lt_of_le_of_lt (Nat.sub_le _ _) t.isLt
  -- the accumulator after the first K-tile
  have hprev : (outsAt0 m hO c (t.val - 1) hlt).2 (ix2 r n)
      = 0 + ∑ k : Fin 2048, term (m ((c : Thread nD τ).loc main_arg0)) (m ((c : Thread nD τ).loc main_arg1)) (m ((c : Thread nD τ).loc main_arg2))
          (m ((c : Thread nD τ).loc main_arg3)) (expertOf m hO t) r n (halfPos 0 k) := by
    have hs := scratch_even m hO c ⟨t.val - 1, hlt⟩ (by show (t.val - 1) % 2 = 0; omega)
    refine (congrFun hs (ix2 r n)).trans ?_
    refine (accumulated_apply _ _ _ _ _ r n).trans ?_
    rw [reset_apply, tile_contribution]
    have e1 : expertOf m hO ⟨t.val - 1, hlt⟩ = expertOf m hO t := Fin.ext (by show (t.val - 1) / 2 = t.val / 2; omega)
    have e2 : halfOf m hO ⟨t.val - 1, hlt⟩ = 0 := Fin.ext (by show (t.val - 1) % 2 = 0; omega)
    rw [e1, e2]
  -- the accumulator after the second
  have hacc : k0_pay2 (actBlk m hO c t) (actScaleBlk m hO c t) (weightBlk m hO c t) (weightScaleBlk m hO c t) (outsAt0 m hO c (t.val - 1) hlt).2 (ix2 r n)
      = ∑ k : Fin 4096, term (m ((c : Thread nD τ).loc main_arg0)) (m ((c : Thread nD τ).loc main_arg1)) (m ((c : Thread nD τ).loc main_arg2))
          (m ((c : Thread nD τ).loc main_arg3)) (expertOf m hO t) r n k := by
    refine (accumulated_apply _ _ _ _ _ r n).trans ?_
    rw [hprev, tile_contribution]
    have e2 : halfOf m hO t = 1 := Fin.ext (by show t.val % 2 = 1; exact h1)
    rw [e2]
    exact accumulate_eq _
  -- the expert's token count
  have hcnt : tbl m 0 (ix1 (pointExpert (grid0.coords t))) = m ((c : Thread nD τ).loc main_arg4) (ix1 (expertOf m hO t)) := by
    rw [← V_pre m c 0]
    show V m c main_arg4 _ = _
    rw [V_main_arg4]
    exact congrArg _ (congrArg ix1 (Fin.ext (index_facts t).2.2.2.2.2))
  rw [out_odd m hO c t h1]
  refine (masked_apply _ _ r n).trans ?_
  exact congrArg₂ (fun cnt s => Scalar.select (IntOp.cmpi .slt (BitVec.ofNat 32 r.val) cnt) s 0) hcnt hacc

/-- What the write-back after an expert's second K-tile writes is its block of the masked grouped product. -/
theorem flushed_eq (c : Dev nD) (t : Fin (cfgM m hO).N) (hf : ((cfgM m hO).win 4).flush t = true) :
    (dats m hO 0 c).flushed 4 t = (((cfgM m hO).win 4).blk t).view.read (Elt Ideal) (value m c) := by
  have h1 : t.val % 2 = 1 := (flush0_4 (adm m hO) t).mp hf
  show ((cfgM m hO).win 4).cut (grid0.coords t) ((dats m hO 0 c).after 4 t) = _
  rw [after0_4]
  refine funext fun (y : S1x256x1024.Idx) => ?_
  show (outsAt0 m hO c t.val t.isLt).1 y = value m c ((((cfgM m hO).win 4).blk t).view.emb y)
  obtain ⟨z, r, n, rfl⟩ : ∃ (z : Fin 1) (r : Fin 256) (n : Fin 1024), y = ix3 z r n := ⟨y 0, y 1, y 2, eq_ix3 y⟩
  obtain rfl : z = 0 := Subsingleton.elim _ _
  rw [out_odd_apply m hO c t h1]
  refine congrArg _ (idx3_eq _ _ _ _ ?_ ?_ ?_).symm
  · show cc0_transform_4 (grid0.coords t) 0 * 1 + 1 * 0 = t.val / 2
    rw [(index_facts t).2.2.2.2.1.1]; omega
  · show cc0_transform_4 (grid0.coords t) 1 * 256 + 1 * r.val = r.val
    rw [(index_facts t).2.2.2.2.1.2.1]; omega
  · show cc0_transform_4 (grid0.coords t) 2 * 1024 + 1 * n.val = n.val
    rw [(index_facts t).2.2.2.2.1.2.2]; omega

/-- Every entry of the result lies in the block some write-back covers: expert `e`'s rows are written after point `2 e + 1`. -/
theorem covered (i : S64x256x1024.Idx) :
    ∃ t : Fin (cfgM m hO).N, ((cfgM m hO).win 4).flush t = true ∧ i ∈ (((cfgM m hO).win 4).blk t).view.set := by
  have h0 : (i 0).val < 64 := (i 0).isLt
  have h1 : (i 1).val < 256 := (i 1).isLt
  have h2 : (i 2).val < 1024 := (i 2).isLt
  have hN : (cfgM m hO).N = 128 := N_0
  let t : Fin (cfgM m hO).N := ⟨2 * (i 0).val + 1, by omega⟩
  refine ⟨t, (flush0_4 (adm m hO) t).mpr (by show (2 * (i 0).val + 1) % 2 = 1; omega), ?_⟩
  refine (Finset.ext_iff.mp (View.set_slice_whole main_v4 (((cfgM m hO).win 4).rect t)) i).mpr (Rect.mem_set_unit.mpr fun a => ?_)
  have ht : t.val = 2 * (i 0).val + 1 := rfl
  match a with
  | ⟨0, _⟩ =>
    show cc0_transform_4 (grid0.coords t) 0 * 1 ≤ (i 0).val ∧ (i 0).val < cc0_transform_4 (grid0.coords t) 0 * 1 + 1
    rw [(index_facts t).2.2.2.2.1.1]; omega
  | ⟨1, _⟩ =>
    show cc0_transform_4 (grid0.coords t) 1 * 256 ≤ (i 1).val ∧ (i 1).val < cc0_transform_4 (grid0.coords t) 1 * 256 + 256
    rw [(index_facts t).2.2.2.2.1.2.1]; omega
  | ⟨2, _⟩ =>
    show cc0_transform_4 (grid0.coords t) 2 * 1024 ≤ (i 2).val ∧ (i 2).val < cc0_transform_4 (grid0.coords t) 2 * 1024 + 1024
    rw [(index_facts t).2.2.2.2.1.2.2]; omega

/-- The result array ends holding the masked grouped product. -/
theorem final (c : Dev nD) : (dats m hO 0 c).arrAt 4 (cfgM m hO).N = value m c :=
  (dats m hO 0 c).arrAt_eq_of_cover 4 (value m c) (flushed_eq m hO c) (covered m hO)

/-- The idealized kernel's run: the result array at the masked grouped product, the arguments unchanged. -/
theorem run (hO : Ok m) : θ_run defs (onTc (τ := τ) (main (F := Ideal))) ⟨m, fun _ => 0, ρ⟩ (fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO)

end Cert.GroupedGemm.Kernel

end
-- ==== Proof.lean ====
/-
  The certificate's claims, assembled.

  The kernel computes, expert by expert, the product of two block-scaled matrices in two K-tiles
  of 2048 positions, accumulating into a scratch block that the first tile resets, and after the
  second tile writes the rows below the expert's token count (zero elsewhere) to the output.
  The reference scales, contracts over all 4096 positions at once, and masks.  Over the extended
  reals both are the masked grouped product of Proof/Spec.lean: the kernel's two-step accumulation
  from a zero start is the whole contraction because addition there is commutative and associative
  (Spec.lean, `accumulate_eq`; no finiteness of the inputs is used), the mask is the same signed
  comparison on both sides, and a change of float format is the identity.

  The frames of the two kernel programs hold for every contents of the count table: the windows'
  index maps do not read the table, so the pipeline's side condition on it is `True`.
-/
import proofs.«421645_j34548716929125_2_alg».proof.Defs
import proofs.«421645_j34548716929125_2_alg».proof.Proof.Gen.Kernel
import proofs.«421645_j34548716929125_2_alg».proof.Proof.Gen.Kernel.Skeleton
import proofs.«421645_j34548716929125_2_alg».proof.Proof.Gen.Kernel.Launch
import proofs.«421645_j34548716929125_2_alg».proof.Proof.Gen.Kernel.Points
import proofs.«421645_j34548716929125_2_alg».proof.Proof.Gen.Kernel.Frame
import proofs.«421645_j34548716929125_2_alg».proof.Proof.Gen.KernelIdeal
import proofs.«421645_j34548716929125_2_alg».proof.Proof.Gen.KernelIdeal.Skeleton
import proofs.«421645_j34548716929125_2_alg».proof.Proof.Gen.KernelIdeal.Launch
import proofs.«421645_j34548716929125_2_alg».proof.Proof.Gen.KernelIdeal.Points
import proofs.«421645_j34548716929125_2_alg».proof.Proof.Gen.KernelIdeal.Frame
import proofs.«421645_j34548716929125_2_alg».proof.Proof.Gen.ReferenceIdeal
import proofs.«421645_j34548716929125_2_alg».proof.Proof.Gen.Pre_finite_inputs
import proofs.«421645_j34548716929125_2_alg».proof.Proof.Gen.ReferenceIdeal.Run
import proofs.«421645_j34548716929125_2_alg».proof.Proof.Gen.ReferenceIdeal.Read
import proofs.«421645_j34548716929125_2_alg».proof.Proof.RefValue
import proofs.«421645_j34548716929125_2_alg».proof.Proof.KernelValue
import Idealize.ShloMosaic.Adequacy
import Idealize.ShloMosaic.Init

noncomputable section

namespace Cert.Proof

open Idealize.ShloMosaic Idealize.SL.Sem

/-- The side condition on the count table at the word-level program: no index map reads the table. -/
theorem ok_kernel (m : (ℓ : Loc Cert.Kernel.nD Cert.Kernel.τ Cert.Kernel.sig) → Buf (Elt Bits) ℓ) : Cert.Kernel.Gen.Ok m := by
  show Cert.Kernel.ok0 _
  unfold Cert.Kernel.ok0
  trivial

/-- The same at the idealized program. -/
theorem ok_kernelIdeal (m : (ℓ : Loc Cert.KernelIdeal.nD Cert.KernelIdeal.τ Cert.KernelIdeal.sig) → Buf (Elt Ideal) ℓ) : Cert.KernelIdeal.Gen.Ok m := by
  show Cert.KernelIdeal.ok0 _
  unfold Cert.KernelIdeal.ok0
  trivial

theorem frame_kernel : Cert.frame_Kernel := fun m ρ _ => Cert.Kernel.Gen.frame m ρ (ok_kernel m)

theorem frame_kernelIdeal : Cert.frame_KernelIdeal := fun m ρ _ => Cert.KernelIdeal.Gen.frame m ρ (ok_kernelIdeal m)

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the masked grouped product of arguments that agree. -/
theorem algebraic : Cert.algebraic_KernelIdeal_ReferenceIdeal := by
  intro m ρ m' ρ' _ hagree
  refine ⟨fun c => Cert.GroupedGemm.Kernel.value m c, Cert.GroupedGemm.Kernel.run m ρ (ok_kernelIdeal m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.GroupedGemm.Reference.value_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
